-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x325x3x64 : Shape := ⟨4, ![64, 325, 3, 64]⟩
abbrev S64x325x1024 : Shape := ⟨3, ![64, 325, 1024]⟩
abbrev S1216x1024 : Shape := ⟨2, ![1216, 1024]⟩
abbrev S1024 : Shape := ⟨1, ![1024]⟩
abbrev S_ : Shape := ⟨0, ![]⟩

class Facts : Prop where
  bcast_S_S64x325x3x64 : S_.BroadcastsInDim S64x325x3x64 (![] : Fin 0 → Fin S64x325x3x64.rank)
  reducesTo_S64x325x3x64_S_d0_1_2_3 : S64x325x3x64.ReducesTo [0, 1, 2, 3] S_
  h_S_ : 0 < S_.numel
  bcast_S_S64x325x1024 : S_.BroadcastsInDim S64x325x1024 (![] : Fin 0 → Fin S64x325x1024.rank)
  reducesTo_S64x325x1024_S_d0_1_2 : S64x325x1024.ReducesTo [0, 1, 2] S_
  bcast_S_S1216x1024 : S_.BroadcastsInDim S1216x1024 (![] : Fin 0 → Fin S1216x1024.rank)
  reducesTo_S1216x1024_S_d0_1 : S1216x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1216x1024 .f32) (main_arg5 : FVec F S1024 .f32) (main_arg6 : FVec F S1216x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1216x1024 .f32 := Host.absf main_arg4
  let main_cst_6 : FVec F S_ .f32 := constant S_ .f32 0x7F800000#32
  let main_v20 : FVec F S1216x1024 .f32 := broadcastInDim S1216x1024 ![] bcast_S_S1216x1024 main_cst_6
  let main_v21 : IVec S1216x1024 1 := cmpf .olt main_v19 main_v20
  let main_c_7 : IVec S_ 1 := constantI S_ 1 1#1
  let main_v22 : IVec S_ 1 := (fun x v => Host.reduce IntOp.andi x v reducesTo_S1216x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1216x1024 .f32 := Host.absf main_arg6
  let main_cst_10 : FVec F S_ .f32 := constant S_ .f32 0x7F800000#32
  let main_v30 : FVec F S1216x1024 .f32 := broadcastInDim S1216x1024 ![] bcast_S_S1216x1024 main_cst_10
  let main_v31 : IVec S1216x1024 1 := cmpf .olt main_v29 main_v30
  let main_c_11 : IVec S_ 1 := constantI S_ 1 1#1
  let main_v32 : IVec S_ 1 := (fun x v => Host.reduce IntOp.andi x v reducesTo_S1216x1024_S_d0_1 h_S_) main_v31 main_c_11
  let main_v33 : IVec S_ 1 := andi main_v28 main_v32
  fn_part2 (F := F) main_arg7 main_v33

def fn {F : FTy → Type} [FloatOps F] (main_arg0 : FVec F S64x325x3x64 .f32) (main_arg1 : FVec F S64x325x1024 .f32) (main_arg2 : FVec F S1216x1024 .f32) (main_arg3 : FVec F S1024 .f32) (main_arg4 : FVec F S1216x1024 .f32) (main_arg5 : FVec F S1024 .f32) (main_arg6 : FVec F S1216x1024 .f32) (main_arg7 : FVec F S1024 .f32) : IVec S_ 1 :=
  let main_v0 : FVec F S64x325x3x64 .f32 := Host.absf main_arg0
  let main_cst : FVec F S_ .f32 := constant S_ .f32 0x7F800000#32
  let main_v1 : FVec F S64x325x3x64 .f32 := broadcastInDim S64x325x3x64 ![] bcast_S_S64x325x3x64 main_cst
  let main_v2 : IVec S64x325x3x64 1 := cmpf .olt main_v0 main_v1
  let main_c : IVec S_ 1 := constantI S_ 1 1#1
  let main_v3 : IVec S_ 1 := (fun x v => Host.reduce IntOp.andi x v reducesTo_S64x325x3x64_S_d0_1_2_3 h_S_) main_v2 main_c
  let main_v4 : FVec F S64x325x1024 .f32 := Host.absf main_arg1
  let main_cst_0 : FVec F S_ .f32 := constant S_ .f32 0x7F800000#32
  let main_v5 : FVec F S64x325x1024 .f32 := broadcastInDim S64x325x1024 ![] bcast_S_S64x325x1024 main_cst_0
  let main_v6 : IVec S64x325x1024 1 := cmpf .olt main_v4 main_v5
  let main_c_1 : IVec S_ 1 := constantI S_ 1 1#1
  let main_v7 : IVec S_ 1 := (fun x v => Host.reduce IntOp.andi x v reducesTo_S64x325x1024_S_d0_1_2 h_S_) main_v6 main_c_1
  let main_v8 : IVec S_ 1 := andi main_v3 main_v7
  let main_v9 : FVec F S1216x1024 .f32 := Host.absf main_arg2
  let main_cst_2 : FVec F S_ .f32 := constant S_ .f32 0x7F800000#32
  let main_v10 : FVec F S1216x1024 .f32 := broadcastInDim S1216x1024 ![] bcast_S_S1216x1024 main_cst_2
  let main_v11 : IVec S1216x1024 1 := cmpf .olt main_v9 main_v10
  let main_c_3 : IVec S_ 1 := constantI S_ 1 1#1
  let main_v12 : IVec S_ 1 := (fun x v => Host.reduce IntOp.andi x v reducesTo_S1216x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S64x325x3x64 : Shape := ⟨4, ![64, 325, 3, 64]⟩
abbrev S64x325x1024 : Shape := ⟨3, ![64, 325, 1024]⟩
abbrev S1216x1024 : Shape := ⟨2, ![1216, 1024]⟩
abbrev S1024 : Shape := ⟨1, ![1024]⟩
abbrev S20800x192 : Shape := ⟨2, ![20800, 192]⟩
abbrev S20800x1024 : Shape := ⟨2, ![20800, 1024]⟩
abbrev S192x1024 : Shape := ⟨2, ![192, 1024]⟩
abbrev S1024x1024 : Shape := ⟨2, ![1024, 1024]⟩
abbrev S1x1024 : Shape := ⟨2, ![1, 1024]⟩
abbrev S520x192 : Shape := ⟨2, ![520, 192]⟩
abbrev S520x1024 : Shape := ⟨2, ![520, 1024]⟩

abbrev nBuf : Space → Nat
  | .hbm => 27
  | .vmem => 15
  | .smem => 0
  | _ => 0

abbrev bufTy : (tb : Table) → Fin (tcTables nBuf tb) → BufTy
  | .hbm, ⟨0, _⟩ => ⟨S64x325x3x64, .f32⟩
  | .hbm, ⟨1, _⟩ => ⟨S64x325x1024, .f32⟩
  | .hbm, ⟨2, _⟩ => ⟨S1216x1024, .f32⟩
  | .hbm, ⟨3, _⟩ => ⟨S1024, .f32⟩
  | .hbm, ⟨4, _⟩ => ⟨S1216x1024, .f32⟩
  | .hbm, ⟨5, _⟩ => ⟨S1024, .f32⟩
  | .hbm, ⟨6, _⟩ => ⟨S1216x1024, .f32⟩
  | .hbm, ⟨7, _⟩ => ⟨S1024, .f32⟩
  | .hbm, ⟨8, _⟩ => ⟨S20800x192, .f32⟩
  | .hbm, ⟨9, _⟩ => ⟨S20800x1024, .f32⟩
  | .hbm, ⟨10, _⟩ => ⟨S192x1024, .f32⟩
  | .hbm, ⟨11, _⟩ => ⟨S192x1024, .bf16⟩
  | .hbm, ⟨12, _⟩ => ⟨S1024x1024, .f32⟩
  | .hbm, ⟨13, _⟩ => ⟨S1024x1024, .bf16⟩
  | .hbm, ⟨14, _⟩ => ⟨S192x1024, .f32⟩
  | .hbm, ⟨15, _⟩ => ⟨S192x1024, .bf16⟩
  | .hbm, ⟨16, _⟩ => ⟨S1024x1024, .f32⟩
  | .hbm, ⟨17, _⟩ => ⟨S1024x1024, .bf16⟩
  | .hbm, ⟨18, _⟩ => ⟨S192x1024, .f32⟩
  | .hbm, ⟨19, _⟩ => ⟨S192x1024, .bf16⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S20800x1024, .f32⟩
  | .hbm, ⟨26, _⟩ => ⟨S64x325x1024, .f32⟩
  | .local _ .vmem, ⟨0, _⟩ => ⟨S520x192, .f32⟩
  | .local _ .vmem, ⟨1, _⟩ => ⟨S520x192, .f32⟩
  | .local _ .vmem, ⟨2, _⟩ => ⟨S520x1024, .f32⟩
  | .local _ .vmem, ⟨3, _⟩ => ⟨S520x1024, .f32⟩
  | .local _ .vmem, ⟨4, _⟩ => ⟨S192x1024, .bf16⟩
  | .local _ .vmem, ⟨5, _⟩ => ⟨S1024x1024, .bf16⟩
  | .local _ .vmem, ⟨6, _⟩ => ⟨S1x1024, .f32⟩
  | .local _ .vmem, ⟨7, _⟩ => ⟨S192x1024, .bf16⟩
  | .local _ .vmem, ⟨8, _⟩ => ⟨S1024x1024, .bf16⟩
  | .local _ .vmem, ⟨9, _⟩ => ⟨S1x1024, .f32⟩
  | .local _ .vmem, ⟨10, _⟩ => ⟨S192x1024, .bf16⟩
  | .local _ .vmem, ⟨11, _⟩ => ⟨S1024x1024, .bf16⟩
  | .local _ .vmem, ⟨12, _⟩ => ⟨S1x1024, .f32⟩
  | .local _ .vmem, ⟨13, _⟩ => ⟨S520x1024, .f32⟩
  | .local _ .vmem, ⟨14, _⟩ => ⟨S520x1024, .f32⟩
  | _, _ => ⟨S64x325x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S520x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S520x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S520x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S64x325x3x64_S20800x192 : S64x325x3x64.ShapeCasts S20800x192
  shapeCasts_S64x325x1024_S20800x1024 : S64x325x1024.ShapeCasts S20800x1024
  slices_S1216x1024_S192x1024_0_0 : S1216x1024.Slices ![0, 0] S192x1024
  bitsLt_bf16_f32 : FTy.bits .bf16 < FTy.bits .f32
  slices_S1216x1024_S1024x1024_192_0 : S1216x1024.Slices ![192, 0] S1024x1024
  shapeCasts_S1024_S1x1024 : S1024.ShapeCasts S1x1024
  inb_S520x192_S520x192_0_0 : ∀ a, (![0, 0] : Fin 2 → Nat) a + S520x192.size a ≤ S520x192.size a
  h_S520x192 : 0 < S520x192.numel
  shapeCasts_S520x192_S520x192 : S520x192.ShapeCasts S520x192
  inb_S520x1024_S520x1024_0_0 : ∀ a, (![0, 0] : Fin 2 → Nat) a + S520x1024.size a ≤ S520x1024.size a
  h_S520x1024 : 0 < S520x1024.numel
  shapeCasts_S520x1024_S520x1024 : S520x1024.ShapeCasts S520x1024
  inb_S192x1024_S192x1024_0_0 : ∀ a, (![0, 0] : Fin 2 → Nat) a + S192x1024.size a ≤ S192x1024.size a
  h_S192x1024 : 0 < S192x1024.numel
  shapeCasts_S192x1024_S192x1024 : S192x1024.ShapeCasts S192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S520x1024 : S1x1024.Broadcasts S520x1024
  shapeCasts_S20800x1024_S64x325x1024 : S20800x1024.ShapeCasts S64x325x1024
  dot_S520x192_S192x1024_S520x1024_1_0_0_1_n_n_wf : DotDims.WF S520x192 S192x1024 S520x1024 [1] [0] [0] [1] [] []
  dot_S520x1024_S1024x1024_S520x1024_1_0_0_1_n_n_wf : DotDims.WF S520x1024 S1024x1024 S520x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S520x192.size a ≤ S20800x192.size a
  hwx0_0 : ∀ i : grid0.Coords, EltTy.bits .f32 = 32 ∨ (Rect.block (s := S20800x192) S520x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S520x1024.size a ≤ S20800x1024.size a
  hwx0_1 : ∀ i : grid0.Coords, EltTy.bits .f32 = 32 ∨ (Rect.block (s := S20800x1024) S520x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x1024.size a ≤ S192x1024.size a
  hwx0_2 : ∀ i : grid0.Coords, EltTy.bits .bf16 = 32 ∨ (Rect.block (s := S192x1024) S192x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x1024.size a ≤ S192x1024.size a
  hwx0_5 : ∀ i : grid0.Coords, EltTy.bits .bf16 = 32 ∨ (Rect.block (s := S192x1024) S192x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192x1024.size a ≤ S192x1024.size a
  hwx0_8 : ∀ i : grid0.Coords, EltTy.bits .bf16 = 32 ∨ (Rect.block (s := S192x1024) S192x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S520x1024.size a ≤ S20800x1024.size a
  hwx0_11 : ∀ i : grid0.Coords, EltTy.bits .f32 = 32 ∨ (Rect.block (s := S20800x1024) S520x1024.size (cc0_transform_11 i) (hinb0_11 i)).WholeWords (EltTy.packing .f32)

variable [Facts₀]

def dot_S520x192_S192x1024_S520x1024_1_0_0_1_n_n : DotDims S520x192 S192x1024 S520x1024 where
  lhsContracting := [1]
  rhsContracting := [0]
  lhsNonContracting := [0]
  rhsNonContracting := [1]
  lhsBatch := []
  rhsBatch := []
  wf := dot_S520x192_S192x1024_S520x1024_1_0_0_1_n_n_wf
def dot_S520x1024_S1024x1024_S520x1024_1_0_0_1_n_n : DotDims S520x1024 S1024x1024 S520x1024 where
  lhsContracting := [1]
  rhsContracting := [0]
  lhsNonContracting := [0]
  rhsNonContracting := [1]
  lhsBatch := []
  rhsBatch := []
  wf := dot_S520x1024_S1024x1024_S520x1024_1_0_0_1_n_n_wf

abbrev win0_0 : Pipeline.Window sig grid0 :=
  Pipeline.Window.ofSpec (Memref.whole main_v0) S520x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S520x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S192x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S192x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S192x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S520x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S64x325x3x64 : Shape := ⟨4, ![64, 325, 3, 64]⟩
abbrev S64x325x1024 : Shape := ⟨3, ![64, 325, 1024]⟩
abbrev S1216x1024 : Shape := ⟨2, ![1216, 1024]⟩
abbrev S1024 : Shape := ⟨1, ![1024]⟩
abbrev S64x325x192 : Shape := ⟨3, ![64, 325, 192]⟩
abbrev S64x325x1216 : Shape := ⟨3, ![64, 325, 1216]⟩
abbrev S1x1x1024 : Shape := ⟨3, ![1, 1, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S64x325x3x64, .f32⟩
  | .hbm, ⟨1, _⟩ => ⟨S64x325x1024, .f32⟩
  | .hbm, ⟨2, _⟩ => ⟨S1216x1024, .f32⟩
  | .hbm, ⟨3, _⟩ => ⟨S1024, .f32⟩
  | .hbm, ⟨4, _⟩ => ⟨S1216x1024, .f32⟩
  | .hbm, ⟨5, _⟩ => ⟨S1024, .f32⟩
  | .hbm, ⟨6, _⟩ => ⟨S1216x1024, .f32⟩
  | .hbm, ⟨7, _⟩ => ⟨S1024, .f32⟩
  | .hbm, ⟨8, _⟩ => ⟨S64x325x192, .f32⟩
  | .hbm, ⟨9, _⟩ => ⟨S64x325x1216, .f32⟩
  | .hbm, ⟨10, _⟩ => ⟨S64x325x1024, .f32⟩
  | .hbm, ⟨11, _⟩ => ⟨S1x1x1024, .f32⟩
  | .hbm, ⟨12, _⟩ => ⟨S64x325x1024, .f32⟩
  | .hbm, ⟨13, _⟩ => ⟨S64x325x1024, .f32⟩
  | .hbm, ⟨14, _⟩ => ⟨S64x325x1024, .f32⟩
  | .hbm, ⟨15, _⟩ => ⟨S64x325x1024, .f32⟩
  | .hbm, ⟨16, _⟩ => ⟨S_, .f32⟩
  | .hbm, ⟨17, _⟩ => ⟨S64x325x1024, .f32⟩
  | .hbm, ⟨18, _⟩ => ⟨S64x325x1024, .f32⟩
  | .hbm, ⟨19, _⟩ => ⟨S_, .f32⟩
  | .hbm, ⟨20, _⟩ => ⟨S64x325x1024, .f32⟩
  | .hbm, ⟨21, _⟩ => ⟨S64x325x1024, .f32⟩
  | .hbm, ⟨22, _⟩ => ⟨S64x325x1024, .f32⟩
  | .hbm, ⟨23, _⟩ => ⟨S1x1x1024, .f32⟩
  | .hbm, ⟨24, _⟩ => ⟨S64x325x1024, .f32⟩
  | .hbm, ⟨25, _⟩ => ⟨S64x325x1024, .f32⟩
  | .hbm, ⟨26, _⟩ => ⟨S64x325x1024, .f32⟩
  | .hbm, ⟨27, _⟩ => ⟨S64x325x1024, .f32⟩
  | .hbm, ⟨28, _⟩ => ⟨S_, .f32⟩
  | .hbm, ⟨29, _⟩ => ⟨S64x325x1024, .f32⟩
  | .hbm, ⟨30, _⟩ => ⟨S64x325x1024, .f32⟩
  | .hbm, ⟨31, _⟩ => ⟨S_, .f32⟩
  | .hbm, ⟨32, _⟩ => ⟨S64x325x1024, .f32⟩
  | .hbm, ⟨33, _⟩ => ⟨S64x325x1024, .f32⟩
  | .hbm, ⟨34, _⟩ => ⟨S64x325x1024, .f32⟩
  | .hbm, ⟨35, _⟩ => ⟨S64x325x1216, .f32⟩
  | .hbm, ⟨36, _⟩ => ⟨S64x325x1024, .f32⟩
  | .hbm, ⟨37, _⟩ => ⟨S1x1x1024, .f32⟩
  | .hbm, ⟨38, _⟩ => ⟨S64x325x1024, .f32⟩
  | .hbm, ⟨39, _⟩ => ⟨S64x325x1024, .f32⟩
  | .hbm, ⟨40, _⟩ => ⟨S64x325x1024, .f32⟩
  | .hbm, ⟨41, _⟩ => ⟨S_, .f32⟩
  | .hbm, ⟨42, _⟩ => ⟨S64x325x1024, .f32⟩
  | .hbm, ⟨43, _⟩ => ⟨S64x325x1024, .f32⟩
  | .hbm, ⟨44, _⟩ => ⟨S64x325x1024, .f32⟩
  | .hbm, ⟨45, _⟩ => ⟨S64x325x1024, .f32⟩
  | .hbm, ⟨46, _⟩ => ⟨S64x325x1024, .f32⟩
  | _, _ => ⟨S64x325x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  shapeCasts_S64x325x3x64_S64x325x192 : S64x325x3x64.ShapeCasts S64x325x192
  concatenates_S64x325x192_S64x325x1024_S64x325x1216_d2 : Shape.Concatenates [S64x325x192, S64x325x1024] S64x325x1216 2
  bcast_S1024_S1x1x1024_2 : S1024.BroadcastsInDim S1x1x1024 (![2] : Fin 1 → Fin S1x1x1024.rank)
  bcast_S1x1x1024_S64x325x1024_0_1_2 : S1x1x1024.BroadcastsInDim S64x325x1024 (![0, 1, 2] : Fin 3 → Fin S64x325x1024.rank)
  bcast_S_S64x325x1024 : S_.BroadcastsInDim S64x325x1024 (![] : Fin 0 → Fin S64x325x1024.rank)
  dot_S64x325x1216_S1216x1024_S64x325x1024_2_0_01_1_n_n_wf : DotDims.WF S64x325x1216 S1216x1024 S64x325x1024 [2] [0] [0, 1] [1] [] []

variable [Facts₀]

def dot_S64x325x1216_S1216x1024_S64x325x1024_2_0_01_1_n_n : DotDims S64x325x1216 S1216x1024 S64x325x1024 where
  lhsContracting := [2]
  rhsContracting := [0]
  lhsNonContracting := [0, 1]
  rhsNonContracting := [1]
  lhsBatch := []
  rhsBatch := []
  wf := dot_S64x325x1216_S1216x1024_S64x325x1024_2_0_01_1_n_n_wf

class Facts : Prop extends Facts₀ where

variable [Facts]
-- ==== Proof.GruCell.lean ====
/-
  One row of a GRU cell on the extended reals.

  A row of the flattened batch carries 192 input features `xr` and 1024 hidden features `hr`. Each of the three
  gates is a linear map of the 1216 concatenated features plus a bias; split at feature 192 it is the sum of an
  input part and a hidden part (`gate`). With z the update gate, r the reset gate (one value per hidden feature)
  and the candidate c = tanh of the third gate applied to the input features and to r ∘ h, the new hidden feature is
  (1 - z) · h + z · c (`cell`). The one law used is that a sum over 1216 features is the sum over the first 192 plus
  the sum over the remaining 1024 (`sum_split`): addition on the extended reals is commutative and associative, so
  no finiteness is needed.
-/
import Idealize.ShloMosaic.PureOps.Ideal
import Idealize.ShloMosaic.PureOps.Ideal.Laws
import Idealize.ShloMosaic.Lib.ValueIdx
import Mathlib.Algebra.BigOperators.Fin

noncomputable section

namespace Cert.Gru

open Idealize.ShloMosaic

/-- The literal 1.0 as both programs carry it. -/
abbrev one : EReal := Ideal.ofBits .f32 0x3F800000#32

/-- That literal is the real number 1. -/
theorem one_eq : one = 1 := by
  simp [one, Ideal.ofBits, Ideal.ieee, -EReal.coe_mul]; norm_num

/-- Feature `k` of the input part, as a feature of the concatenation. -/
abbrev lo (k : Fin 192) : Fin 1216 := ⟨k.val, by have := k.isLt; omega⟩
/-- Feature `k` of the hidden part, as a feature of the concatenation. -/
abbrev hi (k : Fin 1024) : Fin 1216 := ⟨192 + k.val, by have := k.isLt; omega⟩

/-- A sum over the 1216 concatenated features is the sum over the input features plus the sum over the hidden ones. -/
theorem sum_split (f : Fin 1216 → EReal) :
    ∑ c : Fin 1216, f c = (∑ k : Fin 192, f (lo k)) + ∑ k : Fin 1024, f (hi k) :=
  Fin.sum_univ_add (a := 192) (b := 1024) f

/-- A gate before its nonlinearity, for one row and one output feature: the input part of the product, plus the
    hidden part, plus the bias. -/
def gate (xr : Fin 192 → EReal) (hr : Fin 1024 → EReal) (wx : Fin 192 → EReal) (wh : Fin 1024 → EReal) (b : EReal) : EReal :=
  ((∑ k : Fin 192, xr k * wx k) + ∑ k : Fin 1024, hr k * wh k) + b

/-- The same gate over the concatenated features and one weight column. -/
theorem gate_concat (xr : Fin 192 → EReal) (hr : Fin 1024 → EReal) (w : Fin 1216 → EReal) (b : EReal)
    (cat : Fin 1216 → EReal) (hlo : ∀ k, cat (lo k) = xr k) (hhi : ∀ k, cat (hi k) = hr k) :
    (∑ c : Fin 1216, cat c * w c) + b = gate xr hr (fun k => w (lo k)) (fun k => w (hi k)) b := by
  unfold gate
  rw [sum_split]
  simp only [hlo, hhi]

/-- The reset gate of a row: one value per hidden feature. -/
def reset (xr : Fin 192 → EReal) (hr : Fin 1024 → EReal) (wxr : Fin 192 → Fin 1024 → EReal) (whr : Fin 1024 → Fin 1024 → EReal)
    (br : Fin 1024 → EReal) (j : Fin 1024) : EReal :=
  Ideal.logistic (gate xr hr (fun k => wxr k j) (fun k => whr k j) (br j))

/-- The new hidden feature `q` of a row. -/
def cell (xr : Fin 192 → EReal) (hr : Fin 1024 → EReal)
    (wxz : Fin 192 → Fin 1024 → EReal) (whz : Fin 1024 → Fin 1024 → EReal) (bz : Fin 1024 → EReal)
    (wxr : Fin 192 → Fin 1024 → EReal) (whr : Fin 1024 → Fin 1024 → EReal) (br : Fin 1024 → EReal)
    (wxc : Fin 192 → Fin 1024 → EReal) (whc : Fin 1024 → Fin 1024 → EReal) (bc : Fin 1024 → EReal) (q : Fin 1024) : EReal :=
  (one - Ideal.logistic (gate xr hr (fun k => wxz k q) (fun k => whz k q) (bz q))) * hr q
    + Ideal.logistic (gate xr hr (fun k => wxz k q) (fun k => whz k q) (bz q))
      * Ideal.tanh (gate xr (fun j => reset xr hr wxr whr br j * hr j) (fun k => wxc k q) (fun k => whc k q) (bc q))

/-- Input feature `k` of row `(b, n)` in the four-axis input: `k` = 64 · (third coordinate) + (fourth coordinate). -/
abbrev xFeat (b : Fin 64) (n : Fin 325) (k : Fin 192) : (⟨4, ![64, 325, 3, 64]⟩ : Shape).Idx :=
  ValueIdx.ix4 b n (⟨k.val / 64, by have := k.isLt; omega⟩ : Fin 3) (⟨k.val % 64, by omega⟩ : Fin 64)

/-- THE RESULT as one function of the eight argument arrays: entry `(b, n, q)` is new hidden feature `q` of the row
    whose input features are `X[b, n, ·, ·]` flattened and whose hidden features are `H[b, n, ·]`; each weight matrix
    gives its first 192 rows to the input part and its last 1024 to the hidden part. -/
def hNew (X : (⟨4, ![64, 325, 3, 64]⟩ : Shape).Idx → EReal) (H : (⟨3, ![64, 325, 1024]⟩ : Shape).Idx → EReal)
    (Wz : (⟨2, ![1216, 1024]⟩ : Shape).Idx → EReal) (bz : (⟨1, ![1024]⟩ : Shape).Idx → EReal)
    (Wr : (⟨2, ![1216, 1024]⟩ : Shape).Idx → EReal) (br : (⟨1, ![1024]⟩ : Shape).Idx → EReal)
    (Wc : (⟨2, ![1216, 1024]⟩ : Shape).Idx → EReal) (bc : (⟨1, ![1024]⟩ : Shape).Idx → EReal) :
    (⟨3, ![64, 325, 1024]⟩ : Shape).Idx → EReal := fun i =>
  cell (fun k => X (xFeat (i 0) (i 1) k)) (fun k => H (ValueIdx.ix3 (i 0) (i 1) k))
    (fun k q => Wz (ValueIdx.ix2 (lo k) q)) (fun k q => Wz (ValueIdx.ix2 (hi k) q)) (fun q => bz (ValueIdx.ix1 q))
    (fun k q => Wr (ValueIdx.ix2 (lo k) q)) (fun k q => Wr (ValueIdx.ix2 (hi k) q)) (fun q => br (ValueIdx.ix1 q))
    (fun k q => Wc (ValueIdx.ix2 (lo k) q)) (fun k q => Wc (ValueIdx.ix2 (hi k) q)) (fun q => bc (ValueIdx.ix1 q)) (i 2)

/-- The logistic function as the host spells it: 1 / (1 + exp (-x)) with the literal 1.0. -/
theorem logistic_host (x : EReal) : Ideal.div one (one + Ideal.exp (-x)) = Ideal.logistic x := by
  rw [one_eq]; rfl

end Cert.Gru

end
-- ==== Proof.RefIsCell.lean ====
/-
  The reference computes `hNew`.

  Entry (b, n, q) of the reference's result is read one operation at a time. Its three products contract the
  concatenation [input features of row (b, n) | hidden features of row (b, n)] (for the candidate: [input features |
  reset gate times hidden features]) against a weight column; the concatenation's first 192 entries are the reshaped
  input and its last 1024 the second operand, so each product plus its broadcast bias is a `gate` (`sum_split`).
  The host's 1 / (1 + exp (-x)) is the logistic function, and the closing arithmetic is `cell`'s own.
-/
import proofs.«110887_j19774029431558_1_alg».proof.Proof.Gen.ReferenceIdeal.Read
import proofs.«110887_j19774029431558_1_alg».proof.Proof.GruCell

noncomputable section

namespace Cert.ReferenceIdeal.RefValue

open Cert.ReferenceIdeal Cert.ReferenceIdeal.Gen Cert.ReferenceIdeal.Read Idealize.ShloMosaic Idealize.ShloMosaic.ValueIdx Cert.Gru

variable (X : (⟨S64x325x3x64, .f32⟩ : BufTy).Contents (Elt Ideal)) (H : (⟨S64x325x1024, .f32⟩ : BufTy).Contents (Elt Ideal))

/-! ## Indices -/

/-- The left operand of each product at output (b, n, q) and contraction index c is entry (b, n, c). -/
theorem lidx_eq (b : Fin 64) (n : Fin 325) (q : Fin 1024) (c : Fin 1216) :
    lidx_main_v2 (ix3 b n q) c = ix3 b n c :=
  funext fun a => match a with | ⟨0, _⟩ => rfl | ⟨1, _⟩ => rfl | ⟨2, _⟩ => rfl
theorem lidx12_eq (b : Fin 64) (n : Fin 325) (q : Fin 1024) (c : Fin 1216) :
    lidx_main_v12 (ix3 b n q) c = ix3 b n c :=
  funext fun a => match a with | ⟨0, _⟩ => rfl | ⟨1, _⟩ => rfl | ⟨2, _⟩ => rfl
theorem lidx24_eq (b : Fin 64) (n : Fin 325) (q : Fin 1024) (c : Fin 1216) :
    lidx_main_v24 (ix3 b n q) c = ix3 b n c :=
  funext fun a => match a with | ⟨0, _⟩ => rfl | ⟨1, _⟩ => rfl | ⟨2, _⟩ => rfl
/-- The right operand is entry (c, q) of the weight matrix. -/
theorem ridx_eq (b : Fin 64) (n : Fin 325) (q : Fin 1024) (c : Fin 1216) :
    ridx_main_v2 (ix3 b n q) c = ix2 c q :=
  funext fun a => match a with | ⟨0, _⟩ => rfl | ⟨1, _⟩ => rfl
theorem ridx12_eq (b : Fin 64) (n : Fin 325) (q : Fin 1024) (c : Fin 1216) :
    ridx_main_v12 (ix3 b n q) c = ix2 c q :=
  funext fun a => match a with | ⟨0, _⟩ => rfl | ⟨1, _⟩ => rfl
theorem ridx24_eq (b : Fin 64) (n : Fin 325) (q : Fin 1024) (c : Fin 1216) :
    ridx_main_v24 (ix3 b n q) c = ix2 c q :=
  funext fun a => match a with | ⟨0, _⟩ => rfl | ⟨1, _⟩ => rfl
/-- A bias broadcast over rows and batch is read at its feature. -/
theorem bias_idx (b : Fin 64) (n : Fin 325) (q : Fin 1024) : idx_main_v3 (idx_main_v4 (ix3 b n q)) = ix1 q :=
  funext fun a => match a with | ⟨0, _⟩ => rfl
theorem bias_idx' (b : Fin 64) (n : Fin 325) (q : Fin 1024) : idx_main_v13 (idx_main_v14 (ix3 b n q)) = ix1 q :=
  funext fun a => match a with | ⟨0, _⟩ => rfl
theorem bias_idx'' (b : Fin 64) (n : Fin 325) (q : Fin 1024) : idx_main_v25 (idx_main_v26 (ix3 b n q)) = ix1 q :=
  funext fun a => match a with | ⟨0, _⟩ => rfl

/-! ## The concatenated features of a row -/

/-- The input reshaped to [64, 325, 192]: feature k of row (b, n). -/
theorem flatX (b : Fin 64) (n : Fin 325) (k : Fin 192) : val_main_v0 (F := Ideal) X (ix3 b n k) = X (xFeat b n k) := by
  rw [val_main_v0_apply]
  refine congrArg X (funext fun a => Fin.ext ?_)
  have hb := b.isLt; have hn := n.isLt; have hk := k.isLt
  match a with
  | ⟨0, _⟩ => show ((b.val * 325 + n.val) * 192 + k.val) / 62400 = b.val; omega
  | ⟨1, _⟩ => show ((b.val * 325 + n.val) * 192 + k.val) / 192 % 325 = n.val; omega
  | ⟨2, _⟩ => show ((b.val * 325 + n.val) * 192 + k.val) / 64 % 3 = k.val / 64; omega
  | ⟨3, _⟩ => show ((b.val * 325 + n.val) * 192 + k.val) % 64 = k.val % 64; omega

/-- The concatenation of the reshaped input with an array `Y` of hidden width, along the feature axis. -/
abbrev cat (Y : (⟨S64x325x1024, .f32⟩ : BufTy).Contents (Elt Ideal)) : (⟨S64x325x1216, .f32⟩ : BufTy).Contents (Elt Ideal) :=
  concatenate S64x325x1216 2 [⟨S64x325x192, (val_main_v0 (F := Ideal) X)⟩, ⟨S64x325x1024, Y⟩] concatenates_S64x325x192_S64x325x1024_S64x325x1216_d2

/-- Its first 192 features are the input's. -/
theorem cat_lo (Y : (⟨S64x325x1024, .f32⟩ : BufTy).Contents (Elt Ideal)) (b : Fin 64) (n : Fin 325) (k : Fin 192) :
    cat X Y (ix3 b n (lo k)) = X (xFeat b n k) :=
  (concatenate_pair_apply_left (t := S64x325x1216) (s₁ := S64x325x192) (s₂ := S64x325x1024) 2 _ _ _ (ix3 b n (lo k)) rfl (ix3 b n k)
    (fun a => match a with | ⟨0, _⟩ => rfl | ⟨1, _⟩ => rfl | ⟨2, _⟩ => rfl)).trans (flatX X b n k)

/-- Its last 1024 features are `Y`'s. -/
theorem cat_hi (Y : (⟨S64x325x1024, .f32⟩ : BufTy).Contents (Elt Ideal)) (b : Fin 64) (n : Fin 325) (k : Fin 1024) :
    cat X Y (ix3 b n (hi k)) = Y (ix3 b n k) :=
  concatenate_pair_apply_right (t := S64x325x1216) (s₁ := S64x325x192) (s₂ := S64x325x1024) 2 _ _ _ (ix3 b n (hi k)) rfl rfl (ix3 b n k)
    (fun a => match a with
      | ⟨0, _⟩ => fun _ => rfl
      | ⟨1, _⟩ => fun _ => rfl
      | ⟨2, _⟩ => fun h => absurd rfl h)
    (by show k.val + 192 = 192 + k.val; omega)

/-- So a product over the concatenation, plus a bias, is a gate of the row. -/
theorem gate_cat (Y : (⟨S64x325x1024, .f32⟩ : BufTy).Contents (Elt Ideal)) (W : (⟨S1216x1024, .f32⟩ : BufTy).Contents (Elt Ideal))
    (bias : (⟨S1024, .f32⟩ : BufTy).Contents (Elt Ideal)) (b : Fin 64) (n : Fin 325) (q : Fin 1024) :
    (∑ c : Fin 1216, cat X Y (ix3 b n c) * W (ix2 c q)) + bias (ix1 q)
      = gate (fun k => X (xFeat b n k)) (fun k => Y (ix3 b n k)) (fun k => W (ix2 (lo k) q)) (fun k => W (ix2 (hi k) q)) (bias (ix1 q)) :=
  gate_concat _ _ (fun c => W (ix2 c q)) _ (fun c => cat X Y (ix3 b n c)) (fun k => cat_lo X Y b n k) (fun k => cat_hi X Y b n k)

/-! ## The stages -/

variable (Wz : (⟨S1216x1024, .f32⟩ : BufTy).Contents (Elt Ideal)) (bz : (⟨S1024, .f32⟩ : BufTy).Contents (Elt Ideal))
  (Wr : (⟨S1216x1024, .f32⟩ : BufTy).Contents (Elt Ideal)) (br : (⟨S1024, .f32⟩ : BufTy).Contents (Elt Ideal))
  (Wc : (⟨S1216x1024, .f32⟩ : BufTy).Contents (Elt Ideal)) (bc : (⟨S1024, .f32⟩ : BufTy).Contents (Elt Ideal))

/-- The update gate before its logistic. -/
theorem pre_z (b : Fin 64) (n : Fin 325) (q : Fin 1024) :
    val_main_v5 (F := Ideal) X H Wz bz (ix3 b n q)
      = gate (fun k => X (xFeat b n k)) (fun k => H (ix3 b n k)) (fun k => Wz (ix2 (lo k) q)) (fun k => Wz (ix2 (hi k) q)) (bz (ix1 q)) := by
  rw [val_main_v5_apply, val_main_v2_apply, val_main_v4_apply, val_main_v3_apply, bias_idx]
  simp only [lidx_eq, ridx_eq]
  exact gate_cat X H Wz bz b n q

/-- The update gate. -/
theorem upd (b : Fin 64) (n : Fin 325) (q : Fin 1024) :
    val_main_v11 (F := Ideal) X H Wz bz (ix3 b n q)
      = Ideal.logistic (gate (fun k => X (xFeat b n k)) (fun k => H (ix3 b n k)) (fun k => Wz (ix2 (lo k) q)) (fun k => Wz (ix2 (hi k) q)) (bz (ix1 q))) := by
  rw [val_main_v11_apply, val_main_v10_apply, val_main_cst_0_apply, val_main_v9_apply, val_main_v8_apply, val_main_cst_apply,
    val_main_v7_apply, val_main_v6_apply, pre_z]
  exact logistic_host _

/-- The reset gate before its logistic. -/
theorem pre_r (b : Fin 64) (n : Fin 325) (q : Fin 1024) :
    val_main_v15 (F := Ideal) X H Wr br (ix3 b n q)
      = gate (fun k => X (xFeat b n k)) (fun k => H (ix3 b n k)) (fun k => Wr (ix2 (lo k) q)) (fun k => Wr (ix2 (hi k) q)) (br (ix1 q)) := by
  rw [val_main_v15_apply, val_main_v12_apply, val_main_v14_apply, val_main_v13_apply, bias_idx']
  simp only [lidx12_eq, ridx12_eq]
  exact gate_cat X H Wr br b n q

/-- The reset gate times the hidden state. -/
theorem reset_h (b : Fin 64) (n : Fin 325) (j : Fin 1024) :
    val_main_v22 (F := Ideal) X H Wr br (ix3 b n j)
      = reset (fun k => X (xFeat b n k)) (fun k => H (ix3 b n k)) (fun k q => Wr (ix2 (lo k) q)) (fun k q => Wr (ix2 (hi k) q)) (fun q => br (ix1 q)) j
        * H (ix3 b n j) := by
  rw [val_main_v22_apply, val_main_v21_apply, val_main_v20_apply, val_main_cst_2_apply, val_main_v19_apply, val_main_v18_apply, val_main_cst_1_apply,
    val_main_v17_apply, val_main_v16_apply, pre_r]
  exact congrArg (· * H (ix3 b n j)) (logistic_host _)

/-- The candidate before its tanh. -/
theorem pre_c (b : Fin 64) (n : Fin 325) (q : Fin 1024) :
    val_main_v27 (F := Ideal) X H Wr br Wc bc (ix3 b n q)
      = gate (fun k => X (xFeat b n k))
          (fun j => reset (fun k => X (xFeat b n k)) (fun k => H (ix3 b n k)) (fun k q => Wr (ix2 (lo k) q)) (fun k q => Wr (ix2 (hi k) q)) (fun q => br (ix1 q)) j
            * H (ix3 b n j))
          (fun k => Wc (ix2 (lo k) q)) (fun k => Wc (ix2 (hi k) q)) (bc (ix1 q)) := by
  rw [val_main_v27_apply, val_main_v24_apply, val_main_v26_apply, val_main_v25_apply, bias_idx'']
  simp only [lidx24_eq, ridx24_eq]
  refine (gate_cat X (val_main_v22 (F := Ideal) X H Wr br) Wc bc b n q).trans ?_
  exact congrArg (fun hr => gate (fun k => X (xFeat b n k)) hr (fun k => Wc (ix2 (lo k) q)) (fun k => Wc (ix2 (hi k) q)) (bc (ix1 q)))
    (funext fun j => reset_h X H Wr br b n j)

/-- Entry (b, n, q) of the reference's result is the row's new hidden feature q. -/
theorem result_apply (b : Fin 64) (n : Fin 325) (q : Fin 1024) :
    val_main_v33 (F := Ideal) X H Wz bz Wr br Wc bc (ix3 b n q) = hNew X H Wz bz Wr br Wc bc (ix3 b n q) := by
  rw [val_main_v33_apply, val_main_v31_apply, val_main_v30_apply, val_main_v29_apply, val_main_cst_3_apply, val_main_v32_apply,
    val_main_v28_apply, upd, pre_c]
  rfl

/-- The reference's result is `hNew` of the arguments. -/
theorem result_eq : val_main_v33 (F := Ideal) X H Wz bz Wr br Wc bc = hNew X H Wz bz Wr br Wc bc :=
  funext fun i => by
    obtain ⟨b, n, q, rfl⟩ : ∃ (b : Fin 64) (n : Fin 325) (q : Fin 1024), i = ix3 b n q := ⟨i 0, i 1, i 2, eq_ix3 i⟩
    exact result_apply X H Wz bz Wr br Wc bc b n q

end Cert.ReferenceIdeal.RefValue

end
-- ==== Proof.KernelPayload.lean ====
/-
  What the kernel body leaves in its output block, entry by entry.

  The body loads a block of 520 rows of input features and of hidden features and the nine weight and bias
  arrays whole, and stores one block of 520 rows of new hidden features. At the ideal values a change of float
  format is the identity and a matrix product into a zero accumulator is the plain sum over the contracted
  feature, so entry (p, q) of what is stored is `cell` of row p of the two loaded blocks, of the weight columns
  and of the biases at q.
-/
import proofs.«110887_j19774029431558_1_alg».proof.Proof.Gen.KernelIdeal.Frame
import proofs.«110887_j19774029431558_1_alg».proof.Proof.GruCell
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Gru

/-! ## The two matrix products -/

/-- The product of a block of input features with a [192, 1024] weight slab. -/
abbrev DX := dot_S520x192_S192x1024_S520x1024_1_0_0_1_n_n
/-- The product of a block of hidden features with a [1024, 1024] weight slab. -/
abbrev DH := dot_S520x1024_S1024x1024_S520x1024_1_0_0_1_n_n

theorem lhs_DX_0 (i : S520x1024.Idx) (q : dot_S520x192_S192x1024_S520x1024_1_0_0_1_n_n.contr.Idx) :
    (dot_S520x192_S192x1024_S520x1024_1_0_0_1_n_n.lhsIdx i q 0).val = (i 0).val := by
  unfold DotDims.lhsIdx
  rw [dif_neg (show ¬(0 : Fin S520x192.rank) ∈ dot_S520x192_S192x1024_S520x1024_1_0_0_1_n_n.lhsBatch by decide), dif_pos (show (0 : Fin S520x192.rank) ∈ dot_S520x192_S192x1024_S520x1024_1_0_0_1_n_n.lhsNonContracting by decide)]
  rfl
theorem lhs_DX_1 (i : S520x1024.Idx) (q : dot_S520x192_S192x1024_S520x1024_1_0_0_1_n_n.contr.Idx) :
    (dot_S520x192_S192x1024_S520x1024_1_0_0_1_n_n.lhsIdx i q 1).val = (q ⟨0, by decide⟩).val :=
  dot_S520x192_S192x1024_S520x1024_1_0_0_1_n_n.lhsIdx_val_of_single rfl i q
theorem rhs_DX_0 (i : S520x1024.Idx) (q : dot_S520x192_S192x1024_S520x1024_1_0_0_1_n_n.contr.Idx) :
    (dot_S520x192_S192x1024_S520x1024_1_0_0_1_n_n.rhsIdx i q 0).val = (q ⟨0, by decide⟩).val :=
  dot_S520x192_S192x1024_S520x1024_1_0_0_1_n_n.rhsIdx_val_of_single rfl i q
theorem rhs_DX_1 (i : S520x1024.Idx) (q : dot_S520x192_S192x1024_S520x1024_1_0_0_1_n_n.contr.Idx) :
    (dot_S520x192_S192x1024_S520x1024_1_0_0_1_n_n.rhsIdx i q 1).val = (i 1).val := by
  unfold DotDims.rhsIdx
  rw [dif_neg (show ¬(1 : Fin S192x1024.rank) ∈ dot_S520x192_S192x1024_S520x1024_1_0_0_1_n_n.rhsBatch by decide), dif_pos (show (1 : Fin S192x1024.rank) ∈ dot_S520x192_S192x1024_S520x1024_1_0_0_1_n_n.rhsNonContracting by decide)]
  rfl

/-- Entry (p, q) of input features times weights: the sum over the 192 features. -/
theorem mulX (l : FVec Ideal S520x192 .bf16) (r : FVec Ideal S192x1024 .bf16) (p : Fin 520) (q : Fin 1024) :
    matmul DX none l r (constant S520x1024 .f32 0x00000000#32) (ix2 p q) = ∑ k : Fin 192, l (ix2 p k) * r (ix2 k q) := by
  refine (Ideal.matmul_constant_zero_apply dot_S520x192_S192x1024_S520x1024_1_0_0_1_n_n none l r (ix2 p q)).trans ?_
  rw [← Equiv.sum_comp (ValueIdx.contrEquiv1 dot_S520x192_S192x1024_S520x1024_1_0_0_1_n_n 192 rfl rfl).symm]
  refine Finset.sum_congr rfl fun k _ => ?_
  have hk := ValueIdx.contrEquiv1_symm_val dot_S520x192_S192x1024_S520x1024_1_0_0_1_n_n 192 rfl rfl k
  have el : dot_S520x192_S192x1024_S520x1024_1_0_0_1_n_n.lhsIdx (ix2 p q) ((ValueIdx.contrEquiv1 dot_S520x192_S192x1024_S520x1024_1_0_0_1_n_n 192 rfl rfl).symm k) = ix2 p k := funext fun a => Fin.ext (by
    match a with
    | ⟨0, _⟩ => exact lhs_DX_0 _ _
    | ⟨1, _⟩ => exact (lhs_DX_1 _ _).trans hk)
  have er : dot_S520x192_S192x1024_S520x1024_1_0_0_1_n_n.rhsIdx (ix2 p q) ((ValueIdx.contrEquiv1 dot_S520x192_S192x1024_S520x1024_1_0_0_1_n_n 192 rfl rfl).symm k) = ix2 k q := funext fun a => Fin.ext (by
    match a with
    | ⟨0, _⟩ => exact (rhs_DX_0 _ _).trans hk
    | ⟨1, _⟩ => exact rhs_DX_1 _ _)
  rw [el, er]

theorem lhs_DH_0 (i : S520x1024.Idx) (q : dot_S520x1024_S1024x1024_S520x1024_1_0_0_1_n_n.contr.Idx) :
    (dot_S520x1024_S1024x1024_S520x1024_1_0_0_1_n_n.lhsIdx i q 0).val = (i 0).val := by
  unfold DotDims.lhsIdx
  rw [dif_neg (show ¬(0 : Fin S520x1024.rank) ∈ dot_S520x1024_S1024x1024_S520x1024_1_0_0_1_n_n.lhsBatch by decide), dif_pos (show (0 : Fin S520x1024.rank) ∈ dot_S520x1024_S1024x1024_S520x1024_1_0_0_1_n_n.lhsNonContracting by decide)]
  rfl
theorem lhs_DH_1 (i : S520x1024.Idx) (q : dot_S520x1024_S1024x1024_S520x1024_1_0_0_1_n_n.contr.Idx) :
    (dot_S520x1024_S1024x1024_S520x1024_1_0_0_1_n_n.lhsIdx i q 1).val = (q ⟨0, by decide⟩).val :=
  dot_S520x1024_S1024x1024_S520x1024_1_0_0_1_n_n.lhsIdx_val_of_single rfl i q
theorem rhs_DH_0 (i : S520x1024.Idx) (q : dot_S520x1024_S1024x1024_S520x1024_1_0_0_1_n_n.contr.Idx) :
    (dot_S520x1024_S1024x1024_S520x1024_1_0_0_1_n_n.rhsIdx i q 0).val = (q ⟨0, by decide⟩).val :=
  dot_S520x1024_S1024x1024_S520x1024_1_0_0_1_n_n.rhsIdx_val_of_single rfl i q
theorem rhs_DH_1 (i : S520x1024.Idx) (q : dot_S520x1024_S1024x1024_S520x1024_1_0_0_1_n_n.contr.Idx) :
    (dot_S520x1024_S1024x1024_S520x1024_1_0_0_1_n_n.rhsIdx i q 1).val = (i 1).val := by
  unfold DotDims.rhsIdx
  rw [dif_neg (show ¬(1 : Fin S1024x1024.rank) ∈ dot_S520x1024_S1024x1024_S520x1024_1_0_0_1_n_n.rhsBatch by decide), dif_pos (show (1 : Fin S1024x1024.rank) ∈ dot_S520x1024_S1024x1024_S520x1024_1_0_0_1_n_n.rhsNonContracting by decide)]
  rfl

/-- Entry (p, q) of hidden features times weights: the sum over the 1024 features. -/
theorem mulH (l : FVec Ideal S520x1024 .bf16) (r : FVec Ideal S1024x1024 .bf16) (p : Fin 520) (q : Fin 1024) :
    matmul DH none l r (constant S520x1024 .f32 0x00000000#32) (ix2 p q) = ∑ k : Fin 1024, l (ix2 p k) * r (ix2 k q) := by
  refine (Ideal.matmul_constant_zero_apply dot_S520x1024_S1024x1024_S520x1024_1_0_0_1_n_n none l r (ix2 p q)).trans ?_
  rw [← Equiv.sum_comp (ValueIdx.contrEquiv1 dot_S520x1024_S1024x1024_S520x1024_1_0_0_1_n_n 1024 rfl rfl).symm]
  refine Finset.sum_congr rfl fun k _ => ?_
  have hk := ValueIdx.contrEquiv1_symm_val dot_S520x1024_S1024x1024_S520x1024_1_0_0_1_n_n 1024 rfl rfl k
  have el : dot_S520x1024_S1024x1024_S520x1024_1_0_0_1_n_n.lhsIdx (ix2 p q) ((ValueIdx.contrEquiv1 dot_S520x1024_S1024x1024_S520x1024_1_0_0_1_n_n 1024 rfl rfl).symm k) = ix2 p k := funext fun a => Fin.ext (by
    match a with
    | ⟨0, _⟩ => exact lhs_DH_0 _ _
    | ⟨1, _⟩ => exact (lhs_DH_1 _ _).trans hk)
  have er : dot_S520x1024_S1024x1024_S520x1024_1_0_0_1_n_n.rhsIdx (ix2 p q) ((ValueIdx.contrEquiv1 dot_S520x1024_S1024x1024_S520x1024_1_0_0_1_n_n 1024 rfl rfl).symm k) = ix2 k q := funext fun a => Fin.ext (by
    match a with
    | ⟨0, _⟩ => exact (rhs_DH_0 _ _).trans hk
    | ⟨1, _⟩ => exact rhs_DH_1 _ _)
  rw [el, er]

/-! ## The body's named values -/

/-- The loaded hidden block, unchanged. -/
theorem pay2_eq (x1 : Vec Ideal S520x1024 .f32) : k0_pay2 (F := Ideal) x1 = x1 := by
  unfold k0_pay2; exact shapeCast_self _ _
/-- The loaded input block, unchanged (a change of format is the identity). -/
theorem pay3_apply (x0 : Vec Ideal S520x192 .f32) (j : S520x192.Idx) : k0_pay3 (F := Ideal) x0 j = x0 j := by
  unfold k0_pay3; rw [shapeCast_self]; rfl
/-- The loaded hidden block as a product's operand, unchanged. -/
theorem pay4_apply (x1 : Vec Ideal S520x1024 .f32) (j : S520x1024.Idx) : k0_pay4 (F := Ideal) x1 j = x1 j := by
  unfold k0_pay4; rw [pay2_eq]; rfl
theorem pay5_eq (x : Vec Ideal S192x1024 .bf16) : k0_pay5 (F := Ideal) x = x := by
  unfold k0_pay5; exact shapeCast_self _ _
theorem pay6_eq (x : Vec Ideal S1024x1024 .bf16) : k0_pay6 (F := Ideal) x = x := by
  unfold k0_pay6; exact shapeCast_self _ _
theorem pay7_eq (x : Vec Ideal S1x1024 .f32) : k0_pay7 (F := Ideal) x = x := by
  unfold k0_pay7; exact shapeCast_self _ _

/-- The update gate before its logistic, at (p, q). -/
theorem pay8_apply (x0 : Vec Ideal S520x192 .f32) (x1 : Vec Ideal S520x1024 .f32) (x2 : Vec Ideal S192x1024 .bf16)
    (x3 : Vec Ideal S1024x1024 .bf16) (x4 : Vec Ideal S1x1024 .f32) (p : Fin 520) (q : Fin 1024) :
    k0_pay8 (F := Ideal) x0 x1 x2 x3 x4 (ix2 p q)
      = gate (fun k => x0 (ix2 p k)) (fun k => x1 (ix2 p k)) (fun k => x2 (ix2 k q)) (fun k => x3 (ix2 k q)) (x4 (ix2 (0 : Fin 1) q)) := by
  unfold k0_pay8
  rw [shapeCast_self, shapeCast_self, shapeCast_self]
  show (matmul DX none (k0_pay3 (F := Ideal) x0) x2 (constant S520x1024 .f32 0x00000000#32) (ix2 p q)
      + matmul DH none (k0_pay4 (F := Ideal) x1) x3 (constant S520x1024 .f32 0x00000000#32) (ix2 p q))
      + broadcastTo S520x1024 x4 broadcasts_S1x1024_S520x1024 (ix2 p q) = _
  rw [mulX, mulH, broadcastTo_1b_ab_apply]
  simp only [pay3_apply, pay4_apply]
  rfl

/-- The reset gate before its bias, at (p, q). -/
theorem pay9_apply (x0 : Vec Ideal S520x192 .f32) (x1 : Vec Ideal S520x1024 .f32) (x5 : Vec Ideal S192x1024 .bf16)
    (x6 : Vec Ideal S1024x1024 .bf16) (p : Fin 520) (q : Fin 1024) :
    k0_pay9 (F := Ideal) x0 x1 x5 x6 (ix2 p q)
      = (∑ k : Fin 192, x0 (ix2 p k) * x5 (ix2 k q)) + ∑ k : Fin 1024, x1 (ix2 p k) * x6 (ix2 k q) := by
  unfold k0_pay9
  rw [shapeCast_self, shapeCast_self]
  show matmul DX none (k0_pay3 (F := Ideal) x0) x5 (constant S520x1024 .f32 0x00000000#32) (ix2 p q)
      + matmul DH none (k0_pay4 (F := Ideal) x1) x6 (constant S520x1024 .f32 0x00000000#32) (ix2 p q) = _
  rw [mulX, mulH]
  simp only [pay3_apply, pay4_apply]

/-- The reset gate's bias, broadcast down the rows. -/
theorem pay10_apply (x7 : Vec Ideal S1x1024 .f32) (p : Fin 520) (q : Fin 1024) :
    k0_pay10 (F := Ideal) x7 (ix2 p q) = x7 (ix2 (0 : Fin 1) q) := by
  unfold k0_pay10
  rw [shapeCast_self]
  exact broadcastTo_1b_ab_apply _ _ p q

/-- The stored value at (p, q), over the values the first part of the body hands on: the hidden block `h`, the
    input block `xb`, the candidate's weights and bias, the update gate `zl` before its logistic and the reset gate
    `rl + rb` before its logistic. -/
theorem pay1_apply (h : FVec Ideal S520x1024 .f32) (xb : FVec Ideal S520x192 .bf16) (wxc : FVec Ideal S192x1024 .bf16)
    (whc : FVec Ideal S1024x1024 .bf16) (bc : FVec Ideal S1x1024 .f32) (zl rl rb : FVec Ideal S520x1024 .f32) (p : Fin 520) (q : Fin 1024) :
    k0_pay1 (F := Ideal) h xb wxc whc bc zl rl rb (ix2 p q)
      = (one - Ideal.logistic (zl (ix2 p q))) * h (ix2 p q)
        + Ideal.logistic (zl (ix2 p q))
          * Ideal.tanh (((∑ k : Fin 192, xb (ix2 p k) * wxc (ix2 k q))
              + ∑ k : Fin 1024, (Ideal.logistic (rl (ix2 p k) + rb (ix2 p k)) * h (ix2 p k)) * whc (ix2 k q))
            + bc (ix2 (0 : Fin 1) q)) := by
  unfold k0_pay1
  show (one - Ideal.logistic (zl (ix2 p q))) * h (ix2 p q)
      + Ideal.logistic (zl (ix2 p q))
        * Ideal.tanh ((matmul DX none xb wxc (constant S520x1024 .f32 0x00000000#32) (ix2 p q)
            + matmul DH none (truncf .bf16 (mulf (logistic (addf rl rb)) h) bitsLt_bf16_f32) whc (constant S520x1024 .f32 0x00000000#32) (ix2 p q))
          + broadcastTo S520x1024 bc broadcasts_S1x1024_S520x1024 (ix2 p q)) = _
  rw [mulX, mulH, broadcastTo_1b_ab_apply]
  rfl

/-! ## The output block -/

theorem hz : (![0, 0] : Fin 2 → Nat) = fun _ => 0 := funext fun a => by fin_cases a <;> rfl

/-- Entry (p, q) of what the body stores is the new hidden feature q of row p of its blocks. -/
theorem out_apply (x0 : Vec Ideal S520x192 .f32) (x1 : Vec Ideal S520x1024 .f32) (x2 : Vec Ideal S192x1024 .bf16)
    (x3 : Vec Ideal S1024x1024 .bf16) (x4 : Vec Ideal S1x1024 .f32) (x5 : Vec Ideal S192x1024 .bf16) (x6 : Vec Ideal S1024x1024 .bf16)
    (x7 : Vec Ideal S1x1024 .f32) (x8 : Vec Ideal S192x1024 .bf16) (x9 : Vec Ideal S1024x1024 .bf16) (x10 : Vec Ideal S1x1024 .f32)
    (p : Fin 520) (q : Fin 1024) :
    out0_11 (F := Ideal) x0 x1 x2 x3 x4 x5 x6 x7 x8 x9 x10 (ix2 p q)
      = cell (fun k => x0 (ix2 p k)) (fun k => x1 (ix2 p k))
          (fun k q => x2 (ix2 k q)) (fun k q => x3 (ix2 k q)) (fun q => x4 (ix2 (0 : Fin 1) q))
          (fun k q => x5 (ix2 k q)) (fun k q => x6 (ix2 k q)) (fun q => x7 (ix2 (0 : Fin 1) q))
          (fun k q => x8 (ix2 k q)) (fun k q => x9 (ix2 k q)) (fun q => x10 (ix2 (0 : Fin 1) q)) q := by
  unfold out0_11
  rw [View.canon_unit_zero hz]
  simp only [View.ld_unit_zero (S := S520x192) hz, View.ld_unit_zero (S := S520x1024) hz, View.ld_unit_zero (S := S192x1024) hz,
    View.ld_unit_zero (S := S1024x1024) hz, View.ld_unit_zero (S := S1x1024) hz]
  rw [pay1_apply]
  simp only [pay2_eq, pay5_eq, pay6_eq, pay7_eq, pay3_apply, pay8_apply, pay9_apply, pay10_apply]
  rfl

end Cert.KernelIdeal.Payload

end
-- ==== Proof.KernelArrays.lean ====
/-
  The arrays the kernel region finds, entry by entry.

  Before the region the program flattens the batch (row 325 · b + n of the flat arrays is row (b, n)), cuts each
  weight matrix into its first 192 rows and its last 1024 (and changes their format, the identity at the ideal
  values), and gives each bias a leading unit axis. Each of the eleven arrays read at an index is therefore an
  entry of one argument.
-/
import proofs.«110887_j19774029431558_1_alg».proof.Proof.Gen.KernelIdeal.Frame
import proofs.«110887_j19774029431558_1_alg».proof.Proof.GruCell
import Idealize.ShloMosaic.Lib.Pipeline.Value
import Idealize.ShloMosaic.Lib.ValueIdx
import Idealize.ShloMosaic.Lib.StableHlo.Run

noncomputable section

namespace Cert.KernelIdeal.Arrays

open Cert.KernelIdeal Cert.KernelIdeal.Gen Idealize.ShloMosaic Idealize.ShloMosaic.TcCoe Idealize.SL.Sem Idealize.ShloMosaic.StableHlo
open Idealize.ShloMosaic.ValueIdx Cert.Gru

/-- Row (b, n) of the batch in the flat arrays. -/
abbrev flatRow (b : Fin 64) (n : Fin 325) : Fin 20800 := ⟨b.val * 325 + n.val, by have := b.isLt; have := n.isLt; omega⟩

/-! ## The layout operations at an index -/

/-- The input flattened to [20800, 192]: feature k of flat row 325 · b + n. -/
theorem flatX_apply (X : (⟨S64x325x3x64, .f32⟩ : BufTy).Contents (Elt Ideal)) (b : Fin 64) (n : Fin 325) (k : Fin 192) :
    shapeCast S20800x192 X shapeCasts_S64x325x3x64_S20800x192 (ix2 (flatRow b n) k) = X (xFeat b n k) := by
  refine shapeCast_apply X shapeCasts_S64x325x3x64_S20800x192 (ix2 (flatRow b n) k) (xFeat b n k) ?_
  rewrite [Shape.rowMajor_val_four, Shape.rowMajor_val_two]
  have hb := b.isLt; have hn := n.isLt; have hk := k.isLt
  show ((b.val * 325 + n.val) * 3 + k.val / 64) * 64 + k.val % 64 = (b.val * 325 + n.val) * 192 + k.val
  omega

/-- The hidden state flattened to [20800, 1024]: feature k of flat row 325 · b + n. -/
theorem flatH_apply (H : (⟨S64x325x1024, .f32⟩ : BufTy).Contents (Elt Ideal)) (b : Fin 64) (n : Fin 325) (k : Fin 1024) :
    shapeCast S20800x1024 H shapeCasts_S64x325x1024_S20800x1024 (ix2 (flatRow b n) k) = H (ix3 b n k) := by
  refine shapeCast_apply H shapeCasts_S64x325x1024_S20800x1024 (ix2 (flatRow b n) k) (ix3 b n k) ?_
  rewrite [Shape.rowMajor_val_three, Shape.rowMajor_val_two]
  rfl

/-- The first 192 rows of a weight matrix. -/
theorem loSlab_apply (W : (⟨S1216x1024, .f32⟩ : BufTy).Contents (Elt Ideal)) (k : Fin 192) (q : Fin 1024) :
    (truncf .bf16 (extractStridedSlice S192x1024 ![0, 0] W slices_S1216x1024_S192x1024_0_0) bitsLt_bf16_f32 : FVec Ideal S192x1024 .bf16) (ix2 k q)
      = W (ix2 (lo k) q) :=
  extractStridedSlice_apply ![0, 0] W slices_S1216x1024_S192x1024_0_0 (ix2 k q) (ix2 (lo k) q)
    (fun a => match a with
      | ⟨0, _⟩ => by show k.val = 0 + k.val; omega
      | ⟨1, _⟩ => by show q.val = 0 + q.val; omega)

/-- The last 1024 rows of a weight matrix. -/
theorem hiSlab_apply (W : (⟨S1216x1024, .f32⟩ : BufTy).Contents (Elt Ideal)) (k : Fin 1024) (q : Fin 1024) :
    (truncf .bf16 (extractStridedSlice S1024x1024 ![192, 0] W slices_S1216x1024_S1024x1024_192_0) bitsLt_bf16_f32 : FVec Ideal S1024x1024 .bf16) (ix2 k q)
      = W (ix2 (hi k) q) :=
  extractStridedSlice_apply ![192, 0] W slices_S1216x1024_S1024x1024_192_0 (ix2 k q) (ix2 (hi k) q)
    (fun a => match a with
      | ⟨0, _⟩ => by show 192 + k.val = 192 + k.val; rfl
      | ⟨1, _⟩ => by show q.val = 0 + q.val; omega)

/-- A bias as one row. -/
theorem biasRow_apply (v : (⟨S1024, .f32⟩ : BufTy).Contents (Elt Ideal)) (q : Fin 1024) :
    shapeCast S1x1024 v shapeCasts_S1024_S1x1024 (ix2 (0 : Fin 1) q) = v (ix1 q) := by
  refine shapeCast_apply v shapeCasts_S1024_S1x1024 (ix2 (0 : Fin 1) q) (ix1 q) ?_
  rewrite [Shape.rowMajor_val_one, Shape.rowMajor_val_two]
  show q.val = 0 * 1024 + q.val
  omega

/-! ## The arrays as the region finds them -/

variable (m : (ℓ : Loc nD τ sig) → Buf (Elt Ideal) ℓ)

theorem V_x (c : Dev nD) : (V m c main_v0 : S20800x192.Idx → EReal)
    = shapeCast S20800x192 (m ((c : Thread nD τ).loc main_arg0)) shapeCasts_S64x325x3x64_S20800x192 := by
  show StableHlo.after hostOps0 (fun b => m (c, b)) (Proc.devRef .tc main_v0) = _
  after_results <;> rfl
theorem V_h (c : Dev nD) : (V m c main_v1 : S20800x1024.Idx → EReal)
    = shapeCast S20800x1024 (m ((c : Thread nD τ).loc main_arg1)) shapeCasts_S64x325x1024_S20800x1024 := by
  show StableHlo.after hostOps0 (fun b => m (c, b)) (Proc.devRef .tc main_v1) = _
  after_results <;> rfl
theorem V_wxz (c : Dev nD) : (V m c main_v3 : S192x1024.Idx → EReal)
    = truncf (F := Ideal) .bf16 (extractStridedSlice S192x1024 ![0, 0] (m ((c : Thread nD τ).loc main_arg2)) slices_S1216x1024_S192x1024_0_0) bitsLt_bf16_f32 := by
  show StableHlo.after hostOps0 (fun b => m (c, b)) (Proc.devRef .tc main_v3) = _
  after_results <;> rfl
theorem V_whz (c : Dev nD) : (V m c main_v5 : S1024x1024.Idx → EReal)
    = truncf (F := Ideal) .bf16 (extractStridedSlice S1024x1024 ![192, 0] (m ((c : Thread nD τ).loc main_arg2)) slices_S1216x1024_S1024x1024_192_0) bitsLt_bf16_f32 := by
  show StableHlo.after hostOps0 (fun b => m (c, b)) (Proc.devRef .tc main_v5) = _
  after_results <;> rfl
theorem V_bz (c : Dev nD) : (V m c main_v14 : S1x1024.Idx → EReal)
    = shapeCast S1x1024 (m ((c : Thread nD τ).loc main_arg3)) shapeCasts_S1024_S1x1024 := by
  show StableHlo.after hostOps0 (fun b => m (c, b)) (Proc.devRef .tc main_v14) = _
  after_results <;> rfl
theorem V_wxr (c : Dev nD) : (V m c main_v7 : S192x1024.Idx → EReal)
    = truncf (F := Ideal) .bf16 (extractStridedSlice S192x1024 ![0, 0] (m ((c : Thread nD τ).loc main_arg4)) slices_S1216x1024_S192x1024_0_0) bitsLt_bf16_f32 := by
  show StableHlo.after hostOps0 (fun b => m (c, b)) (Proc.devRef .tc main_v7) = _
  after_results <;> rfl
theorem V_whr (c : Dev nD) : (V m c main_v9 : S1024x1024.Idx → EReal)
    = truncf (F := Ideal) .bf16 (extractStridedSlice S1024x1024 ![192, 0] (m ((c : Thread nD τ).loc main_arg4)) slices_S1216x1024_S1024x1024_192_0) bitsLt_bf16_f32 := by
  show StableHlo.after hostOps0 (fun b => m (c, b)) (Proc.devRef .tc main_v9) = _
  after_results <;> rfl
theorem V_br (c : Dev nD) : (V m c main_v15 : S1x1024.Idx → EReal)
    = shapeCast S1x1024 (m ((c : Thread nD τ).loc main_arg5)) shapeCasts_S1024_S1x1024 := by
  show StableHlo.after hostOps0 (fun b => m (c, b)) (Proc.devRef .tc main_v15) = _
  after_results <;> rfl
theorem V_wxc (c : Dev nD) : (V m c main_v11 : S192x1024.Idx → EReal)
    = truncf (F := Ideal) .bf16 (extractStridedSlice S192x1024 ![0, 0] (m ((c : Thread nD τ).loc main_arg6)) slices_S1216x1024_S192x1024_0_0) bitsLt_bf16_f32 := by
  show StableHlo.after hostOps0 (fun b => m (c, b)) (Proc.devRef .tc main_v11) = _
  after_results <;> rfl
theorem V_whc (c : Dev nD) : (V m c main_v13 : S1024x1024.Idx → EReal)
    = truncf (F := Ideal) .bf16 (extractStridedSlice S1024x1024 ![192, 0] (m ((c : Thread nD τ).loc main_arg6)) slices_S1216x1024_S1024x1024_192_0) bitsLt_bf16_f32 := by
  show StableHlo.after hostOps0 (fun b => m (c, b)) (Proc.devRef .tc main_v13) = _
  after_results <;> rfl
theorem V_bc (c : Dev nD) : (V m c main_v16 : S1x1024.Idx → EReal)
    = shapeCast S1x1024 (m ((c : Thread nD τ).loc main_arg7)) shapeCasts_S1024_S1x1024 := by
  show StableHlo.after hostOps0 (fun b => m (c, b)) (Proc.devRef .tc main_v16) = _
  after_results <;> rfl

end Cert.KernelIdeal.Arrays

end
-- ==== Proof.KernelFinal.lean ====
/-
  The kernel's result array is `hNew` of the arguments.

  Grid point t handles flat rows 520 · t … 520 · t + 519: its input and hidden blocks are those rows of the flat
  arrays, its weight and bias blocks the whole arrays, and what it writes back is those rows of the flat result
  `flatNew` (the body's stored block is `cell` row by row). The forty blocks tile the 20800 rows, so the flat
  array after the region is `flatNew`; the closing reshape puts flat row 325 · b + n at (b, n), and there the
  arrays the region found are entries of the arguments: the result is `hNew`.
-/
import proofs.«110887_j19774029431558_1_alg».proof.Proof.KernelPayload
import proofs.«110887_j19774029431558_1_alg».proof.Proof.KernelArrays

set_option maxRecDepth 16384

noncomputable section

namespace Cert.KernelIdeal.Final

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx Cert.Gru Cert.KernelIdeal.Arrays

variable (m : (ℓ : Loc nD τ sig) → Buf (Elt Ideal) ℓ) (ρ : Dev nD → PrngReg)

/-! ## The flat result -/

/-- New hidden feature q of flat row P, over the eleven arrays as the region finds them. -/
def flatCell (c : Dev nD) (P : Fin 20800) (q : Fin 1024) : EReal :=
  cell (fun k => V m c main_v0 (ix2 P k)) (fun k => V m c main_v1 (ix2 P k))
    (fun k q => V m c main_v3 (ix2 k q)) (fun k q => V m c main_v5 (ix2 k q)) (fun q => V m c main_v14 (ix2 (0 : Fin 1) q))
    (fun k q => V m c main_v7 (ix2 k q)) (fun k q => V m c main_v9 (ix2 k q)) (fun q => V m c main_v15 (ix2 (0 : Fin 1) q))
    (fun k q => V m c main_v11 (ix2 k q)) (fun k q => V m c main_v13 (ix2 k q)) (fun q => V m c main_v16 (ix2 (0 : Fin 1) q)) q

/-- The flat [20800, 1024] result. -/
def flatNew (c : Dev nD) : S20800x1024.Idx → EReal := fun j => flatCell m c (j 0) (j 1)

/-! ## The blocks of a grid point -/

theorem point_lt (t : Fin cfg0.N) : t.val < 40 := lt_of_lt_of_eq t.isLt N_0

/-- Row p of point t's blocks is flat row 520 · t + p. -/
abbrev rowOf (t : Fin cfg0.N) (p : Fin 520) : Fin 20800 :=
  ⟨t.val * 520 + p.val, by have := point_lt t; have := p.isLt; omega⟩

/-- The printed index maps, decided over the forty points: the row windows (input, hidden, output) sit at block
    row t, every weight and bias window at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Every block row is some point's. -/
theorem idx_onto : ∀ r : Fin 40, ∃ t : Fin cfg0.N, win0_11.index t (0 : Fin 2) = r.val :=
  (by decide +kernel : ∀ r : Fin 40, ∃ t : Fin grid0.N, win0_11.index t (0 : Fin 2) = r.val)

/-- The input block of point t. -/
theorem blk_x (c : Dev nD) (t : Fin cfg0.N) (p : Fin 520) (k : Fin 192) :
    (iblk m c 0 t : Vec Ideal S520x192 .f32) (ix2 p k) = V m c main_v0 (ix2 (rowOf t p) k) := by
  obtain ⟨e0, e1, -⟩ := idx_facts t
  show V m c main_v0 (((cfg0.win 0).blk t).view.emb (ix2 p k)) = V m c main_v0 (ix2 (rowOf t p) k)
  refine congrArg (V m c main_v0) (funext fun a => Fin.ext ?_)
  match a with
  | ⟨0, _⟩ => show win0_0.index t (0 : Fin 2) * 520 + 1 * p.val = t.val * 520 + p.val; omega
  | ⟨1, _⟩ => show win0_0.index t (1 : Fin 2) * 192 + 1 * k.val = k.val; omega

/-- The hidden block of point t. -/
theorem blk_h (c : Dev nD) (t : Fin cfg0.N) (p : Fin 520) (k : Fin 1024) :
    (iblk m c 1 t : Vec Ideal S520x1024 .f32) (ix2 p k) = V m c main_v1 (ix2 (rowOf t p) k) := by
  obtain ⟨-, -, e0, e1, -⟩ := idx_facts t
  show V m c main_v1 (((cfg0.win 1).blk t).view.emb (ix2 p k)) = V m c main_v1 (ix2 (rowOf t p) k)
  refine congrArg (V m c main_v1) (funext fun a => Fin.ext ?_)
  match a with
  | ⟨0, _⟩ => show win0_1.index t (0 : Fin 2) * 520 + 1 * p.val = t.val * 520 + p.val; omega
  | ⟨1, _⟩ => show win0_1.index t (1 : Fin 2) * 1024 + 1 * k.val = k.val; omega

/-- Each weight or bias window's block is the whole array, at every point. -/
theorem blk_wxz (c : Dev nD) (t : Fin cfg0.N) (k : Fin 192) (q : Fin 1024) :
    (iblk m c 2 t : Vec Ideal S192x1024 .bf16) (ix2 k q) = V m c main_v3 (ix2 k q) := by
  obtain ⟨-, -, -, -, -, -, e0, e1, -⟩ := idx_facts t
  show V m c main_v3 (((cfg0.win 2).blk t).view.emb (ix2 k q)) = V m c main_v3 (ix2 k q)
  refine congrArg (V m c main_v3) (funext fun a => Fin.ext ?_)
  match a with
  | ⟨0, _⟩ => show win0_2.index t (0 : Fin 2) * 192 + 1 * k.val = k.val; omega
  | ⟨1, _⟩ => show win0_2.index t (1 : Fin 2) * 1024 + 1 * q.val = q.val; omega
theorem blk_whz (c : Dev nD) (t : Fin cfg0.N) (k : Fin 1024) (q : Fin 1024) :
    (iblk m c 3 t : Vec Ideal S1024x1024 .bf16) (ix2 k q) = V m c main_v5 (ix2 k q) := by
  obtain ⟨-, -, -, -, -, -, -, -, e0, e1, -⟩ := idx_facts t
  show V m c main_v5 (((cfg0.win 3).blk t).view.emb (ix2 k q)) = V m c main_v5 (ix2 k q)
  refine congrArg (V m c main_v5) (funext fun a => Fin.ext ?_)
  match a with
  | ⟨0, _⟩ => show win0_3.index t (0 : Fin 2) * 1024 + 1 * k.val = k.val; omega
  | ⟨1, _⟩ => show win0_3.index t (1 : Fin 2) * 1024 + 1 * q.val = q.val; omega
theorem blk_bz (c : Dev nD) (t : Fin cfg0.N) (q : Fin 1024) :
    (iblk m c 4 t : Vec Ideal S1x1024 .f32) (ix2 (0 : Fin 1) q) = V m c main_v14 (ix2 (0 : Fin 1) q) := by
  obtain ⟨-, -, -, -, -, -, -, -, -, -, e0, e1, -⟩ := idx_facts t
  show V m c main_v14 (((cfg0.win 4).blk t).view.emb (ix2 (0 : Fin 1) q)) = V m c main_v14 (ix2 (0 : Fin 1) q)
  refine congrArg (V m c main_v14) (funext fun a => Fin.ext ?_)
  match a with
  | ⟨0, _⟩ => show win0_4.index t (0 : Fin 2) * 1 + 1 * 0 = 0; omega
  | ⟨1, _⟩ => show win0_4.index t (1 : Fin 2) * 1024 + 1 * q.val = q.val; omega
theorem blk_wxr (c : Dev nD) (t : Fin cfg0.N) (k : Fin 192) (q : Fin 1024) :
    (iblk m c 5 t : Vec Ideal S192x1024 .bf16) (ix2 k q) = V m c main_v7 (ix2 k q) := by
  obtain ⟨-, -, -, -, -, -, -, -, -, -, -, -, e0, e1, -⟩ := idx_facts t
  show V m c main_v7 (((cfg0.win 5).blk t).view.emb (ix2 k q)) = V m c main_v7 (ix2 k q)
  refine congrArg (V m c main_v7) (funext fun a => Fin.ext ?_)
  match a with
  | ⟨0, _⟩ => show win0_5.index t (0 : Fin 2) * 192 + 1 * k.val = k.val; omega
  | ⟨1, _⟩ => show win0_5.index t (1 : Fin 2) * 1024 + 1 * q.val = q.val; omega
theorem blk_whr (c : Dev nD) (t : Fin cfg0.N) (k : Fin 1024) (q : Fin 1024) :
    (iblk m c 6 t : Vec Ideal S1024x1024 .bf16) (ix2 k q) = V m c main_v9 (ix2 k q) := by
  obtain ⟨-, -, -, -, -, -, -, -, -, -, -, -, -, -, e0, e1, -⟩ := idx_facts t
  show V m c main_v9 (((cfg0.win 6).blk t).view.emb (ix2 k q)) = V m c main_v9 (ix2 k q)
  refine congrArg (V m c main_v9) (funext fun a => Fin.ext ?_)
  match a with
  | ⟨0, _⟩ => show win0_6.index t (0 : Fin 2) * 1024 + 1 * k.val = k.val; omega
  | ⟨1, _⟩ => show win0_6.index t (1 : Fin 2) * 1024 + 1 * q.val = q.val; omega
theorem blk_br (c : Dev nD) (t : Fin cfg0.N) (q : Fin 1024) :
    (iblk m c 7 t : Vec Ideal S1x1024 .f32) (ix2 (0 : Fin 1) q) = V m c main_v15 (ix2 (0 : Fin 1) q) := by
  obtain ⟨-, -, -, -, -, -, -, -, -, -, -, -, -, -, -, -, e0, e1, -⟩ := idx_facts t
  show V m c main_v15 (((cfg0.win 7).blk t).view.emb (ix2 (0 : Fin 1) q)) = V m c main_v15 (ix2 (0 : Fin 1) q)
  refine congrArg (V m c main_v15) (funext fun a => Fin.ext ?_)
  match a with
  | ⟨0, _⟩ => show win0_7.index t (0 : Fin 2) * 1 + 1 * 0 = 0; omega
  | ⟨1, _⟩ => show win0_7.index t (1 : Fin 2) * 1024 + 1 * q.val = q.val; omega
theorem blk_wxc (c : Dev nD) (t : Fin cfg0.N) (k : Fin 192) (q : Fin 1024) :
    (iblk m c 8 t : Vec Ideal S192x1024 .bf16) (ix2 k q) = V m c main_v11 (ix2 k q) := by
  obtain ⟨-, -, -, -, -, -, -, -, -, -, -, -, -, -, -, -, -, -, e0, e1, -⟩ := idx_facts t
  show V m c main_v11 (((cfg0.win 8).blk t).view.emb (ix2 k q)) = V m c main_v11 (ix2 k q)
  refine congrArg (V m c main_v11) (funext fun a => Fin.ext ?_)
  match a with
  | ⟨0, _⟩ => show win0_8.index t (0 : Fin 2) * 192 + 1 * k.val = k.val; omega
  | ⟨1, _⟩ => show win0_8.index t (1 : Fin 2) * 1024 + 1 * q.val = q.val; omega
theorem blk_whc (c : Dev nD) (t : Fin cfg0.N) (k : Fin 1024) (q : Fin 1024) :
    (iblk m c 9 t : Vec Ideal S1024x1024 .bf16) (ix2 k q) = V m c main_v13 (ix2 k q) := by
  obtain ⟨-, -, -, -, -, -, -, -, -, -, -, -, -, -, -, -, -, -, -, -, e0, e1, -⟩ := idx_facts t
  show V m c main_v13 (((cfg0.win 9).blk t).view.emb (ix2 k q)) = V m c main_v13 (ix2 k q)
  refine congrArg (V m c main_v13) (funext fun a => Fin.ext ?_)
  match a with
  | ⟨0, _⟩ => show win0_9.index t (0 : Fin 2) * 1024 + 1 * k.val = k.val; omega
  | ⟨1, _⟩ => show win0_9.index t (1 : Fin 2) * 1024 + 1 * q.val = q.val; omega
theorem blk_bc (c : Dev nD) (t : Fin cfg0.N) (q : Fin 1024) :
    (iblk m c 10 t : Vec Ideal S1x1024 .f32) (ix2 (0 : Fin 1) q) = V m c main_v16 (ix2 (0 : Fin 1) q) := by
  obtain ⟨-, -, -, -, -, -, -, -, -, -, -, -, -, -, -, -, -, -, -, -, -, -, e0, e1⟩ := idx_facts t
  show V m c main_v16 (((cfg0.win 10).blk t).view.emb (ix2 (0 : Fin 1) q)) = V m c main_v16 (ix2 (0 : Fin 1) q)
  refine congrArg (V m c main_v16) (funext fun a => Fin.ext ?_)
  match a with
  | ⟨0, _⟩ => show win0_10.index t (0 : Fin 2) * 1 + 1 * 0 = 0; omega
  | ⟨1, _⟩ => show win0_10.index t (1 : Fin 2) * 1024 + 1 * q.val = q.val; omega

/-! ## What a point writes back, and the array after the region -/

/-- Entry (p, q) of point t's output block sits at flat row 520 · t + p. -/
theorem out_emb (t : Fin cfg0.N) (p : Fin 520) (q : Fin 1024) :
    ((cfg0.win 11).blk t).view.emb (ix2 p q) = ix2 (rowOf t p) q := by
  obtain ⟨-, -, -, -, e0, e1, -⟩ := idx_facts t
  funext a; apply Fin.ext
  match a with
  | ⟨0, _⟩ => show win0_11.index t (0 : Fin 2) * 520 + 1 * p.val = t.val * 520 + p.val; omega
  | ⟨1, _⟩ => show win0_11.index t (1 : Fin 2) * 1024 + 1 * q.val = q.val; omega

/-- WHAT POINT t WRITES BACK is block t of the flat result. -/
theorem flushed_eq (c : Dev nD) (t : Fin cfg0.N) :
    (dats m 0 c).flushed 11 t = ((cfg0.win 11).blk t).view.read (Elt Ideal) (flatNew m c) := by
  show (cfg0.win 11).cut (grid0.coords t) ((dats m 0 c).after 11 t) = _
  rw [after0_11]
  funext y
  obtain ⟨p, q, rfl⟩ : ∃ (p : Fin 520) (q : Fin 1024), y = ix2 p q := ⟨y 0, y 1, eq_ix2 y⟩
  show out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p q)
    = flatNew m c (((cfg0.win 11).blk t).view.emb (ix2 p q))
  rw [out_emb]
  refine (Payload.out_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) p q).trans ?_
  simp only [blk_x, blk_h, blk_wxz, blk_whz, blk_bz, blk_wxr, blk_whr, blk_br, blk_wxc, blk_whc, blk_bc]
  rfl

/-- An index of the flat array is in point t's block iff each coordinate is in the block's range on its axis. -/
theorem mem_blk (t : Fin cfg0.N) (i : S20800x1024.Idx) :
    i ∈ ((cfg0.win 11).blk t).view.set ↔ ∀ a : Fin 2, win0_11.index t a * S520x1024.size a ≤ (i a).val ∧ (i a).val < win0_11.index t a * S520x1024.size a + S520x1024.size a := by
  show i ∈ ((View.whole main_v17).slice (win0_11.rect t)).set ↔ _
  rw [View.set_slice_whole, Rect.mem_set_unit]
  exact Iff.rfl

/-- The forty blocks cover the flat array: row r lies in the block of point r / 520. -/
theorem cover (i : S20800x1024.Idx) : ∃ t : Fin cfg0.N, (cfg0.win 11).flush t = true ∧ i ∈ ((cfg0.win 11).blk t).view.set := by
  have hi0 : (i 0).val < 20800 := (i 0).isLt
  have hi1 : (i 1).val < 1024 := (i 1).isLt
  obtain ⟨t, ht⟩ := idx_onto ⟨(i 0).val / 520, by omega⟩
  have q0 : win0_11.index t (0 : Fin 2) = (i 0).val / 520 := ht
  obtain ⟨-, -, -, -, -, q1, -⟩ := idx_facts t
  refine ⟨t, flush0_11 t, ?_⟩
  rw [mem_blk]
  intro a
  match a with
  | ⟨0, _⟩ => show win0_11.index t (0 : Fin 2) * 520 ≤ (i 0).val ∧ (i 0).val < win0_11.index t (0 : Fin 2) * 520 + 520; omega
  | ⟨1, _⟩ => show win0_11.index t (1 : Fin 2) * 1024 ≤ (i 1).val ∧ (i 1).val < win0_11.index t (1 : Fin 2) * 1024 + 1024; omega

/-- THE FLAT ARRAY after the region is the flat result. -/
theorem final (c : Dev nD) : (dats m 0 c).arrAt 11 cfg0.N = flatNew m c :=
  (dats m 0 c).arrAt_eq_of_cover 11 (flatNew m c) (fun t _ => flushed_eq m c t) cover

/-! ## The closing reshape, and the arguments -/

/-- The program's result buffer after the closing reshape. -/
theorem tail_eq (c : Dev nD) :
    Pipeline.afterTail₀ cfgs (dats m) 0 (V0 m) [hostOps1] c main_v18
      = shapeCast S64x325x1024 (flatNew m c) shapeCasts_S20800x1024_S64x325x1024 := by
  unfold Pipeline.afterTail₀
  show StableHlo.after hostOps1 _ (Proc.devRef .tc main_v18) = _
  after_results
  exact congrArg (fun A => shapeCast S64x325x1024 A shapeCasts_S20800x1024_S64x325x1024)
    ((Pipeline.withArrays_arr spec0 launch0.win.arr_inj c _ _ 11).trans (final m c))

/-- `cell` depends on its row and bias arguments only through their values. -/
theorem cell_rows {xr xr' : Fin 192 → EReal} {hr hr' : Fin 1024 → EReal} {bz bz' br br' bc bc' : Fin 1024 → EReal}
    (wxz : Fin 192 → Fin 1024 → EReal) (whz : Fin 1024 → Fin 1024 → EReal) (wxr : Fin 192 → Fin 1024 → EReal)
    (whr : Fin 1024 → Fin 1024 → EReal) (wxc : Fin 192 → Fin 1024 → EReal) (whc : Fin 1024 → Fin 1024 → EReal) (q : Fin 1024)
    (h1 : xr = xr') (h2 : hr = hr') (h3 : bz = bz') (h4 : br = br') (h5 : bc = bc') :
    cell xr hr wxz whz bz wxr whr br wxc whc bc q = cell xr' hr' wxz whz bz' wxr whr br' wxc whc bc' q := by
  subst h1 h2 h3 h4 h5; rfl

/-- The flat result at flat row 325 · b + n is `hNew` at (b, n). -/
theorem flatNew_apply (c : Dev nD) (b : Fin 64) (n : Fin 325) (q : Fin 1024) :
    flatNew m c (ix2 (flatRow b n) q)
      = hNew (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (ix3 b n q) := by
  show flatCell m c (flatRow b n) q = _
  unfold flatCell
  rw [V_x, V_h, V_wxz, V_whz, V_bz, V_wxr, V_whr, V_br, V_wxc, V_whc, V_bc]
  simp only [loSlab_apply, hiSlab_apply]
  exact cell_rows _ _ _ _ _ _ q (funext fun k => flatX_apply _ b n k) (funext fun k => flatH_apply _ b n k)
    (funext fun j => biasRow_apply _ j) (funext fun j => biasRow_apply _ j) (funext fun j => biasRow_apply _ j)

/-- THE RESULT of the idealized kernel program. -/
theorem result_eq (c : Dev nD) :
    Pipeline.afterTail₀ cfgs (dats m) 0 (V0 m) [hostOps1] c main_v18
      = hNew (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [tail_eq]
  funext i
  obtain ⟨b, n, q, rfl⟩ : ∃ (b : Fin 64) (n : Fin 325) (q : Fin 1024), i = ix3 b n q := ⟨i 0, i 1, i 2, eq_ix3 i⟩
  refine (shapeCast_apply (flatNew m c) shapeCasts_S20800x1024_S64x325x1024 (ix3 b n q) (ix2 (flatRow b n) q) ?_).trans
    (flatNew_apply m c b n q)
  rewrite [Shape.rowMajor_val_two, Shape.rowMajor_val_three]
  rfl

/-- The run of the idealized kernel program: it terminates with the result at `hNew` of the arguments, which end
    unchanged. -/
theorem run : θ_run defs (onTc (τ := τ) (main (F := Ideal))) ⟨m, fun _ => 0, ρ⟩ fun r => ∀ c : Dev nD,
      r.2.mem ((c.tc : Thread nD τ).loc main_v18)
        = hNew (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Final

end
-- ==== Proof.lean ====
/-
  A fused GRU cell against its jnp reference, equal over the extended reals.

  The kernel flattens the batch to 20800 rows and, forty blocks of 520 rows at a time, computes each gate as the
  product of the row's 192 input features with the first 192 rows of the gate's weight matrix plus the product of
  its 1024 hidden features with the last 1024 rows, plus the bias; the reference concatenates input and hidden
  features and multiplies by the whole matrix. A sum over 1216 features is the sum over the first 192 plus the sum
  over the last 1024 (addition on the extended reals is commutative and associative: no finiteness is used), the
  kernel's logistic is the reference's 1 / (1 + exp (-x)), the changes of float format are the identity at the ideal
  values, and the rest of the arithmetic is the same on both sides: both results are `Cert.Gru.hNew` of the eight
  arguments. The three frames are the generated ones (the reference's is its run with the result dropped), and the
  idealization rewrote nothing.
-/
import proofs.«110887_j19774029431558_1_alg».proof.Defs
import proofs.«110887_j19774029431558_1_alg».proof.Proof.Gen.Kernel
import proofs.«110887_j19774029431558_1_alg».proof.Proof.Gen.Kernel.Skeleton
import proofs.«110887_j19774029431558_1_alg».proof.Proof.Gen.Kernel.Launch
import proofs.«110887_j19774029431558_1_alg».proof.Proof.Gen.Kernel.Points
import proofs.«110887_j19774029431558_1_alg».proof.Proof.Gen.Kernel.Frame
import proofs.«110887_j19774029431558_1_alg».proof.Proof.Gen.KernelIdeal
import proofs.«110887_j19774029431558_1_alg».proof.Proof.Gen.KernelIdeal.Skeleton
import proofs.«110887_j19774029431558_1_alg».proof.Proof.Gen.KernelIdeal.Launch
import proofs.«110887_j19774029431558_1_alg».proof.Proof.Gen.KernelIdeal.Points
import proofs.«110887_j19774029431558_1_alg».proof.Proof.Gen.KernelIdeal.Frame
import proofs.«110887_j19774029431558_1_alg».proof.Proof.Gen.ReferenceIdeal
import proofs.«110887_j19774029431558_1_alg».proof.Proof.Gen.ReferenceIdeal.Run
import proofs.«110887_j19774029431558_1_alg».proof.Proof.Gen.ReferenceIdeal.Read
import proofs.«110887_j19774029431558_1_alg».proof.Proof.Gen.Pre_finite_inputs
import proofs.«110887_j19774029431558_1_alg».proof.Proof.RefIsCell
import proofs.«110887_j19774029431558_1_alg».proof.Proof.KernelFinal
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result at `hNew` of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v33_eq, Cert.ReferenceIdeal.RefValue.result_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
